-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg6
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : IVec S100000 32) (main_arg3 : FVec F S128x16 .f32) (main_arg4 : FVec F S16 .f32) (main_arg5 : FVec F S16x10 .f32) (main_arg6 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg5
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg6 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S5000x128 : Shape := ⟨2, ![5000, 128]⟩
abbrev S5000x16 : Shape := ⟨2, ![5000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S1024x16 : Shape := ⟨2, ![1024, 16]⟩
abbrev S100000x1 : Shape := ⟨2, ![100000, 1]⟩
abbrev S1024 : Shape := ⟨1, ![1024]⟩
abbrev S1024x1 : Shape := ⟨2, ![1024, 1]⟩
abbrev S1x10 : Shape := ⟨2, ![1, 10]⟩
abbrev S1024x10 : Shape := ⟨2, ![1024, 10]⟩

abbrev nBuf : Space → Nat
  | .hbm => 79
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x10, .f32⟩
  | .hbm, ⟨6, _⟩ => ⟨S10, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S100000x16, .f32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S_, .f32⟩
  | .hbm, ⟨67, _⟩ => ⟨S1024x16, .f32⟩
  | .hbm, ⟨68, _⟩ => ⟨S100000x1, .i32⟩
  | .hbm, ⟨69, _⟩ => ⟨S1024x16, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S1024, .f32⟩
  | .hbm, ⟨74, _⟩ => ⟨S100000x1, .i32⟩
  | .hbm, ⟨75, _⟩ => ⟨S1024, .f32⟩
  | .hbm, ⟨76, _⟩ => ⟨S1024x1, .f32⟩
  | .hbm, ⟨77, _⟩ => ⟨S1x10, .f32⟩
  | .hbm, ⟨78, _⟩ => ⟨S1024x10, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S1024x16, .f32⟩
  | .local _ .vmem, ⟨11, _⟩ => ⟨S1024x1, .f32⟩
  | .local _ .vmem, ⟨12, _⟩ => ⟨S16x10, .f32⟩
  | .local _ .vmem, ⟨13, _⟩ => ⟨S1x10, .f32⟩
  | .local _ .vmem, ⟨14, _⟩ => ⟨S1024x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  bcast_S_S1024x16 : S_.BroadcastsInDim S1024x16 (![] : Fin 0 → Fin S1024x16.rank)
  bcast_S100000_S100000x1_0 : S100000.BroadcastsInDim S100000x1 (![0] : Fin 1 → Fin S100000x1.rank)
  bcast_S_S1024 : S_.BroadcastsInDim S1024 (![] : Fin 0 → Fin S1024.rank)
  shapeCasts_S1024_S1024x1 : S1024.ShapeCasts S1024x1
  shapeCasts_S10_S1x10 : S10.ShapeCasts S1x10
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  broadcasts_S1024x1_S1024x16 : S1024x1.Broadcasts S1024x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S5000x128_S128x16_S5000x16_1_0_0_1_n_n_wf : DotDims.WF S5000x128 S128x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  scatter_S1024x16_S100000x1_S100000x16_1_0_0_1_wf : ScatterDims.WF S1024x16 S100000x1 S100000x16 [1] [0] [0] 1
  scatter_S1024_S100000x1_S100000_n_0_0_1_wf : ScatterDims.WF S1024 S100000x1 S100000 [] [0] [0] 1
  dot_S1024x16_S16x10_S1024x10_1_0_0_1_n_n_wf : DotDims.WF S1024x16 S16x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x16.size a ≤ S1024x16.size a
  hwx2_0 : ∀ i : grid2.Coords, EltTy.bits .f32 = 32 ∨ (Rect.block (s := S1024x16) S1024x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S1024x1.size a
  hwx2_1 : ∀ i : grid2.Coords, EltTy.bits .f32 = 32 ∨ (Rect.block (s := S1024x1) S1024x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x10.size a ≤ S16x10.size a
  hwx2_2 : ∀ i : grid2.Coords, EltTy.bits .f32 = 32 ∨ (Rect.block (s := S16x10) S16x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x10.size a ≤ S1024x10.size a
  hwx2_4 : ∀ i : grid2.Coords, EltTy.bits .f32 = 32 ∨ (Rect.block (s := S1024x10) S1024x10.size (cc2_transform_4 i) (hinb2_4 i)).WholeWords (EltTy.packing .f32)

variable [Facts₀]

def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def scatter_S1024x16_S100000x1_S100000x16_1_0_0_1 : ScatterDims S1024x16 S100000x1 S100000x16 where
  updateWindowDims := [1]
  insertedWindowDims := [0]
  scatterDimsToOperandDims := [0]
  indexVectorDim := 1
  wf := scatter_S1024x16_S100000x1_S100000x16_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x16_S16x10_S1024x10_1_0_0_1_n_n : DotDims S1024x16 S16x10 S1024x10 where
  lhsContracting := [1]
  rhsContracting := [0]
  lhsNonContracting := [0]
  rhsNonContracting := [1]
  lhsBatch := []
  rhsBatch := []
  wf := dot_S1024x16_S16x10_S1024x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S1024x16.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1024x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1024x10.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S1024x16 : Shape := ⟨2, ![1024, 16]⟩
abbrev S100000x1 : Shape := ⟨2, ![100000, 1]⟩
abbrev S1024 : Shape := ⟨1, ![1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x10, .f32⟩
  | .hbm, ⟨6, _⟩ => ⟨S10, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S100000x16, .f32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000x16, .f32⟩
  | .hbm, ⟨69, _⟩ => ⟨S100000x16, .f32⟩
  | .hbm, ⟨70, _⟩ => ⟨S_, .f32⟩
  | .hbm, ⟨71, _⟩ => ⟨S1024x16, .f32⟩
  | .hbm, ⟨72, _⟩ => ⟨S100000x1, .i32⟩
  | .hbm, ⟨73, _⟩ => ⟨S1024x16, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S1024, .f32⟩
  | .hbm, ⟨78, _⟩ => ⟨S100000x1, .i32⟩
  | .hbm, ⟨79, _⟩ => ⟨S1024, .f32⟩
  | .hbm, ⟨80, _⟩ => ⟨S_, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024x1, .f32⟩
  | .hbm, ⟨85, _⟩ => ⟨S1024x16, .f32⟩
  | .hbm, ⟨86, _⟩ => ⟨S1024x16, .f32⟩
  | .hbm, ⟨87, _⟩ => ⟨S1024x10, .f32⟩
  | .hbm, ⟨88, _⟩ => ⟨S1x10, .f32⟩
  | .hbm, ⟨89, _⟩ => ⟨S1024x10, .f32⟩
  | .hbm, ⟨90, _⟩ => ⟨S1024x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S1024x16 : S_.BroadcastsInDim S1024x16 (![] : Fin 0 → Fin S1024x16.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  scatter_S1024x16_S100000x1_S100000x16_1_0_0_1_wf : ScatterDims.WF S1024x16 S100000x1 S100000x16 [1] [0] [0] 1
  scatter_S1024_S100000x1_S100000_n_0_0_1_wf : ScatterDims.WF S1024 S100000x1 S100000 [] [0] [0] 1
  dot_S1024x16_S16x10_S1024x10_1_0_0_1_n_n_wf : DotDims.WF S1024x16 S16x10 S1024x10 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def scatter_S1024x16_S100000x1_S100000x16_1_0_0_1 : ScatterDims S1024x16 S100000x1 S100000x16 where
  updateWindowDims := [1]
  insertedWindowDims := [0]
  scatterDimsToOperandDims := [0]
  indexVectorDim := 1
  wf := scatter_S1024x16_S100000x1_S100000x16_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x16_S16x10_S1024x10_1_0_0_1_n_n : DotDims S1024x16 S16x10 S1024x10 where
  lhsContracting := [1]
  rhsContracting := [0]
  lhsNonContracting := [0]
  rhsNonContracting := [1]
  lhsBatch := []
  rhsBatch := []
  wf := dot_S1024x16_S16x10_S1024x10_1_0_0_1_n_n_wf

class Facts : Prop extends Facts₀ where

variable [Facts]
-- ==== Proof.Spec.lean ====
/-
  The reference program cut at the three places where the kernel program runs a kernel region.

  Both programs compute, from node features `x`, an edge list `ei`, graph ids `bt` and the two layers' weights,
    h      = x · W1                                          (a 100000 × 128 by 128 × 16 product)
    s      = aggregate ei h                                  (degree-normalised sum of neighbours' rows, with self loops)
    a      = max (s + b1) 0
    sums   = pooled bt a,   cnt = counts bt                  (per-graph sums and node counts)
    logits = (sums / max cnt 1) · W2 + b2.
  The stretches `aggregate`, `pooled` and `counts` are the same host operations in both programs; here they are named as
  functions of the value that enters them, over the reference's own stage definitions, and the reference's result is
  shown to be their composition with its own product, rectifier and final layer.
-/
import proofs.«115618_j85186381349135_1_alg».proof.Proof.RefRead

noncomputable section

namespace Cert.Gcn

open Cert.ReferenceIdeal Cert.ReferenceIdeal.ReadP Idealize.ShloMosaic Idealize.ShloMosaic.TcCoe

variable {F : FTy → Type} [FloatOps F]

/-- The message-passing stretch as a function of the edge list and of the projected features `h`: every edge (and every
    node's self loop) carries its source row of `h`, scaled by the two end points' inverse square-root degrees, to its
    target row, where the contributions are added. -/
def aggregate (ei : (⟨S2x3200000, .i32⟩ : BufTy).Contents (Elt F)) (h : (⟨S100000x16, .f32⟩ : BufTy).Contents (Elt F)) :
    (⟨S100000x16, .f32⟩ : BufTy).Contents (Elt F) :=
  Host.scatterAdd scatter_S100000x16_S3300000x1_S3300000x16_1_0_0_1 (val_main_v41 (F := F)) (val_main_v42 (F := F) ei)
    (mulf (Host.gather gather_S100000x16_S3300000x1_S3300000x16_1_0_n_n_0_1_116 h (val_main_v36 (F := F) ei)) (val_main_v39 (F := F) ei))

/-- Per-graph sums of the rows of `a`, by graph id. -/
def pooled (bt : (⟨S100000, .i32⟩ : BufTy).Contents (Elt F)) (a : (⟨S100000x16, .f32⟩ : BufTy).Contents (Elt F)) :
    (⟨S1024x16, .f32⟩ : BufTy).Contents (Elt F) :=
  Host.scatterAdd scatter_S1024x16_S100000x1_S100000x16_1_0_0_1 (val_main_v48 (F := F)) (val_main_v49 (F := F) bt) a

/-- Per-graph node counts, by graph id. -/
def counts (bt : (⟨S100000, .i32⟩ : BufTy).Contents (Elt F)) : (⟨S1024, .f32⟩ : BufTy).Contents (Elt F) :=
  val_main_v54 (F := F) bt

/-- The reference's bias and rectifier on the aggregated features. -/
def refAct (s : (⟨S100000x16, .f32⟩ : BufTy).Contents (Elt F)) (b1 : (⟨S16, .f32⟩ : BufTy).Contents (Elt F)) :
    (⟨S100000x16, .f32⟩ : BufTy).Contents (Elt F) :=
  maximumf (addf s (val_main_v45 (F := F) b1)) (val_main_call1_v0 (F := F))

/-- The reference's mean pooling and final layer on the per-graph sums. -/
def refHead (sums : (⟨S1024x16, .f32⟩ : BufTy).Contents (Elt F)) (bt : (⟨S100000, .i32⟩ : BufTy).Contents (Elt F))
    (w2 : (⟨S16x10, .f32⟩ : BufTy).Contents (Elt F)) (b2 : (⟨S10, .f32⟩ : BufTy).Contents (Elt F)) :
    (⟨S1024x10, .f32⟩ : BufTy).Contents (Elt F) :=
  addf (Host.dotGeneral dot_S1024x16_S16x10_S1024x10_1_0_0_1_n_n none (Host.divf sums (val_main_v57 (F := F) bt)) w2)
    (val_main_v61 (F := F) b2)

/-- The reference's result is the composition of the stretches. -/
theorem ref_eq (x0 : (⟨S100000x128, .f32⟩ : BufTy).Contents (Elt F)) (x1 : (⟨S2x3200000, .i32⟩ : BufTy).Contents (Elt F))
    (x2 : (⟨S100000, .i32⟩ : BufTy).Contents (Elt F)) (x3 : (⟨S128x16, .f32⟩ : BufTy).Contents (Elt F))
    (x4 : (⟨S16, .f32⟩ : BufTy).Contents (Elt F)) (x5 : (⟨S16x10, .f32⟩ : BufTy).Contents (Elt F))
    (x6 : (⟨S10, .f32⟩ : BufTy).Contents (Elt F)) :
    val_main_v62 (F := F) x0 x1 x2 x3 x4 x5 x6
      = refHead (pooled x2 (refAct (aggregate x1 (val_main_v7 (F := F) x0 x3)) x4)) x2 x5 x6 := rfl

end Cert.Gcn

end
-- ==== Proof.Hosts.lean ====
/-
  The kernel program's host stretches, read as values.

  Between its kernel regions the program runs the same host operations as the reference: before the first region the
  edge list is split into the source and target index vectors (each with the self loops appended); between the first and
  the second region the degree-normalised aggregation; between the second and the third the per-graph sums and counts,
  and reshapes of the biases. Each buffer a later region reads is, at that region's entry, the matching stretch of the
  reference (`Cert.Gcn.aggregate`, `pooled`, `counts`) applied to what the previous region left and to the launch
  contents of the integer arguments; the argument buffers themselves are never written.
-/
import proofs.«115618_j85186381349135_1_alg».proof.Proof.Gen.KernelIdeal.Frame
import proofs.«115618_j85186381349135_1_alg».proof.Proof.Spec
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hosts

open Cert.KernelIdeal Cert.KernelIdeal.Gen

variable {F : FTy → Type} [FloatOps F]
variable (m : (ℓ : Loc nD τ sig) → Buf (Elt F) ℓ) (ρ : Dev nD → PrngReg)

/-! ## The arguments at the first region's entry -/

theorem V1_arg0 (c : Dev nD) : V1 m ρ c main_arg0 = m ((c : Thread nD τ).loc main_arg0) := by
  show StableHlo.after hostOps0 (W0 m ρ c) (Proc.devRef .tc main_arg0) = _
  after_results_simp
  try rfl

theorem V1_arg3 (c : Dev nD) : V1 m ρ c main_arg3 = m ((c : Thread nD τ).loc main_arg3) := by
  show StableHlo.after hostOps0 (W0 m ρ c) (Proc.devRef .tc main_arg3) = _
  after_results_simp
  try rfl

/-! ## The edge list's two index vectors, made before the first region and kept through it -/

theorem W2_src (c : Dev nD) :
    W2 m ρ c (Proc.devRef .tc main_v3) = Cert.ReferenceIdeal.ReadP.val_main_v3 (F := F) (m ((c : Thread nD τ).loc main_arg1)) := by
  rw [W2_of_ne m ρ c main_v3 (by decide)]
  show StableHlo.after hostOps0 (W0 m ρ c) (Proc.devRef .tc main_v3) = _
  after_results
  rfl

theorem W2_dst (c : Dev nD) :
    W2 m ρ c (Proc.devRef .tc main_v6) = Cert.ReferenceIdeal.ReadP.val_main_v6 (F := F) (m ((c : Thread nD τ).loc main_arg1)) := by
  rw [W2_of_ne m ρ c main_v6 (by decide)]
  show StableHlo.after hostOps0 (W0 m ρ c) (Proc.devRef .tc main_v6) = _
  after_results
  rfl

/-! ## Between the first and the second region -/

/-- At the second region's entry its first operand holds the aggregation of what the first region left. -/
theorem V5_agg (c : Dev nD) :
    V5 m ρ c main_v43 = Cert.Gcn.aggregate (F := F) (m ((c : Thread nD τ).loc main_arg1)) (W2 m ρ c (Proc.devRef .tc main_v7)) := by
  show StableHlo.after hostOps1_2 (StableHlo.after hostOps1_1 (StableHlo.after hostOps1 (W2 m ρ c))) (Proc.devRef .tc main_v43) = _
  after_results_simp
  rw [W2_src, W2_dst]
  rfl

/-- … and its second operand the first layer's bias as one row. -/
theorem V5_bias (c : Dev nD) :
    V5 m ρ c main_v44 = shapeCast S1x16 (m ((c : Thread nD τ).loc main_arg4)) shapeCasts_S16_S1x16 := by
  show StableHlo.after hostOps1_2 (StableHlo.after hostOps1_1 (StableHlo.after hostOps1 (W2 m ρ c))) (Proc.devRef .tc main_v44) = _
  after_results_simp
  rw [W2_of_ne m ρ c main_arg4 (by decide)]
  show shapeCast S1x16 (StableHlo.after hostOps0 (W0 m ρ c) (Proc.devRef .tc main_arg4)) shapeCasts_S16_S1x16 = _
  after_results_simp
  try rfl

/-! ## Between the second and the third region -/

/-- The graph ids, the second layer's weight and its bias are still as launched when the second region has ended. -/
theorem W6_arg2 (c : Dev nD) : W6 m ρ c (Proc.devRef .tc main_arg2) = m ((c : Thread nD τ).loc main_arg2) := by
  rw [W6_of_ne m ρ c main_arg2 (by decide)]
  show StableHlo.after hostOps1_2 (StableHlo.after hostOps1_1 (StableHlo.after hostOps1 (W2 m ρ c))) (Proc.devRef .tc main_arg2) = _
  after_results_simp
  rw [W2_of_ne m ρ c main_arg2 (by decide)]
  show StableHlo.after hostOps0 (W0 m ρ c) (Proc.devRef .tc main_arg2) = _
  after_results_simp
  try rfl

theorem W6_arg5 (c : Dev nD) : W6 m ρ c (Proc.devRef .tc main_arg5) = m ((c : Thread nD τ).loc main_arg5) := by
  rw [W6_of_ne m ρ c main_arg5 (by decide)]
  show StableHlo.after hostOps1_2 (StableHlo.after hostOps1_1 (StableHlo.after hostOps1 (W2 m ρ c))) (Proc.devRef .tc main_arg5) = _
  after_results_simp
  rw [W2_of_ne m ρ c main_arg5 (by decide)]
  show StableHlo.after hostOps0 (W0 m ρ c) (Proc.devRef .tc main_arg5) = _
  after_results_simp
  try rfl

theorem W6_arg6 (c : Dev nD) : W6 m ρ c (Proc.devRef .tc main_arg6) = m ((c : Thread nD τ).loc main_arg6) := by
  rw [W6_of_ne m ρ c main_arg6 (by decide)]
  show StableHlo.after hostOps1_2 (StableHlo.after hostOps1_1 (StableHlo.after hostOps1 (W2 m ρ c))) (Proc.devRef .tc main_arg6) = _
  after_results_simp
  rw [W2_of_ne m ρ c main_arg6 (by decide)]
  show StableHlo.after hostOps0 (W0 m ρ c) (Proc.devRef .tc main_arg6) = _
  after_results_simp
  try rfl

/-- At the third region's entry its first operand holds the per-graph sums of what the second region left, -/
theorem V7_sums (c : Dev nD) :
    V7 m ρ c main_v48 = Cert.Gcn.pooled (F := F) (m ((c : Thread nD τ).loc main_arg2)) (W6 m ρ c (Proc.devRef .tc main_v45)) := by
  show StableHlo.after hostOps2 (W6 m ρ c) (Proc.devRef .tc main_v48) = _
  after_results_simp
  rw [W6_arg2]
  rfl

/-- its second the per-graph node counts as one column, -/
theorem V7_cnt (c : Dev nD) :
    V7 m ρ c main_v53 = shapeCast S1024x1 (Cert.Gcn.counts (F := F) (m ((c : Thread nD τ).loc main_arg2))) shapeCasts_S1024_S1024x1 := by
  show StableHlo.after hostOps2 (W6 m ρ c) (Proc.devRef .tc main_v53) = _
  after_results_simp
  rw [W6_arg2]
  rfl

/-- its third the second layer's weight as launched, -/
theorem V7_w2 (c : Dev nD) : V7 m ρ c main_arg5 = m ((c : Thread nD τ).loc main_arg5) := by
  show StableHlo.after hostOps2 (W6 m ρ c) (Proc.devRef .tc main_arg5) = _
  after_results_simp
  exact W6_arg5 m ρ c

/-- and its fourth the second layer's bias as one row. -/
theorem V7_b2 (c : Dev nD) :
    V7 m ρ c main_v54 = shapeCast S1x10 (m ((c : Thread nD τ).loc main_arg6)) shapeCasts_S10_S1x10 := by
  show StableHlo.after hostOps2 (W6 m ρ c) (Proc.devRef .tc main_v54) = _
  after_results_simp
  rw [W6_arg6]
  rfl

end Cert.KernelIdeal.Hosts

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Region0.lean ====
/-
  The first kernel region (the feature projection), read as a value at the ideal numbers.

  The region's grid has twenty points; point `t` loads rows `5000·t … 5000·t + 4999` of the left operand and the whole
  right operand, multiplies them into the zero accumulator, and writes the product back as rows `5000·t …` of the result.
  A change of float format is the identity on the ideal numbers, so entry `(a, b)` of what point `t` writes is
  `∑ k, x (5000·t + a, k) · w (k, b)`: the blocks are the restrictions of ONE array, the full product `rowsByCols x w`,
  and the twenty blocks cover its 100000 rows. Hence the result array ends holding `rowsByCols x w`.
-/
import proofs.«115618_j85186381349135_1_alg».proof.Proof.Gen.KernelIdeal.Frame
import proofs.«115618_j85186381349135_1_alg».proof.Proof.LibDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Projection

open Cert.KernelIdeal Cert.KernelIdeal.Gen

/-- The product of a 100000 × 128 by a 128 × 16 array, entry by entry. -/
def rowsByCols (A : FVec Ideal S100000x128 .f32) (B : FVec Ideal S128x16 .f32) : FVec Ideal S100000x16 .f32 :=
  fun i => ∑ k : Fin 128, A (ix2 (⟨(i 0).val, idx2_lt0 i⟩ : Fin 100000) k) * B (ix2 k (⟨(i 1).val, idx2_lt1 i⟩ : Fin 16))

theorem rowsByCols_apply (A : FVec Ideal S100000x128 .f32) (B : FVec Ideal S128x16 .f32) (a : Fin 100000) (b : Fin 16) :
    rowsByCols A B (ix2 a b) = ∑ k : Fin 128, A (ix2 a k) * B (ix2 k b) := rfl

theorem zeroOff : (![0, 0] : Fin 2 → Nat) = fun _ => 0 := funext fun a => by fin_cases a <;> rfl

/-- One point's product at an entry: the body's payload is the block product. -/
theorem pay_apply (x0 : FVec Ideal S5000x128 .f32) (x1 : FVec Ideal S128x16 .f32) (a : Fin 5000) (b : Fin 16) :
    k0_pay1 (F := Ideal) x0 x1 (ix2 a b) = ∑ k : Fin 128, x0 (ix2 a k) * x1 (ix2 k b) := by
  unfold k0_pay1
  exact Cert.LibDot.matmul_10_zero_apply dot_S5000x128_S128x16_S5000x16_1_0_0_1_n_n rfl rfl rfl rfl rfl rfl none _ _ a b

/-- A block of rows of the product is the product of that block of rows: if `x0` is rows `5000·r …` of `A` and `x1` is
    `B`, the payload at `j` is the full product at the entry `5000·r` rows further down. -/
theorem pay_block (A : FVec Ideal S100000x128 .f32) (B : FVec Ideal S128x16 .f32)
    (x0 : FVec Ideal S5000x128 .f32) (x1 : FVec Ideal S128x16 .f32) (r : Nat)
    (h0 : ∀ (a : Fin 5000) (k : Fin 128) (a' : Fin 100000), a'.val = r * 5000 + a.val → x0 (ix2 a k) = A (ix2 a' k))
    (h1 : ∀ (k : Fin 128) (b : Fin 16), x1 (ix2 k b) = B (ix2 k b))
    (j : S5000x16.Idx) (i : S100000x16.Idx) (hi0 : (i 0).val = r * 5000 + (j 0).val) (hi1 : (i 1).val = (j 1).val) :
    k0_pay1 (F := Ideal) x0 x1 j = rowsByCols A B i := by
  obtain ⟨a, b, rfl⟩ : ∃ (a : Fin 5000) (b : Fin 16), j = ix2 a b := ⟨j 0, j 1, eq_ix2 j⟩
  obtain ⟨a', b', rfl⟩ : ∃ (a' : Fin 100000) (b' : Fin 16), i = ix2 a' b' := ⟨i 0, i 1, eq_ix2 i⟩
  have eb : b' = b := Fin.ext hi1
  subst eb
  rw [pay_apply, rowsByCols_apply]
  exact Finset.sum_congr rfl fun k _ => by rw [h0 a k a' hi0, h1 k b']

variable (V : (c : Dev nD) → (b : Ref sig .tc) → Buf (Elt Ideal) ((c : Thread nD τ).loc b))

/-- The printed index maps over the grid: the row-block windows sit at block row `t`, the right operand's at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of the full product of the arrays the region found. -/
theorem flushed_eq (c : Dev nD) (t : Fin cfg0.N) :
    (dat0 V c).flushed 2 t = ((cfg0.win 2).blk t).view.read (Elt Ideal) (rowsByCols (V c main_arg0) (V c main_arg3)) := by
  show (cfg0.win 2).cut (grid0.coords t) ((dat0 V c).after 2 t) = _
  rw [after0_2]
  unfold out0_2
  rw [View.canon_unit_zero zeroOff]
  simp only [View.ld_unit_zero (S := S5000x128) zeroOff, View.ld_unit_zero (S := S128x16) zeroOff]
  obtain ⟨e00, e01, e10, e11, e20, e21⟩ := idx_facts t
  funext j
  refine pay_block (V c main_arg0) (V c main_arg3) _ _ t.val ?_ ?_ j _ ?_ ?_
  · intro a k a' ha
    show V c main_arg0 (((cfg0.win 0).blk t).view.emb (ix2 a k)) = V c main_arg0 (ix2 a' k)
    refine congrArg _ (funext fun d => Fin.ext ?_)
    match d with
    | ⟨0, _⟩ => show win0_0.index t (0 : Fin 2) * 5000 + 1 * a.val = a'.val; rw [e00, ha]; omega
    | ⟨1, _⟩ => show win0_0.index t (1 : Fin 2) * 128 + 1 * k.val = k.val; rw [e01]; omega
  · intro k b
    show V c main_arg3 (((cfg0.win 1).blk t).view.emb (ix2 k b)) = V c main_arg3 (ix2 k b)
    refine congrArg _ (funext fun d => Fin.ext ?_)
    match d with
    | ⟨0, _⟩ => show win0_1.index t (0 : Fin 2) * 128 + 1 * k.val = k.val; rw [e10]; omega
    | ⟨1, _⟩ => show win0_1.index t (1 : Fin 2) * 16 + 1 * b.val = b.val; rw [e11]; omega
  · show win0_2.index t (0 : Fin 2) * 5000 + 1 * (j 0).val = t.val * 5000 + (j 0).val; rw [e20]; omega
  · show win0_2.index t (1 : Fin 2) * 16 + 1 * (j 1).val = (j 1).val; rw [e21]; omega

/-- Every row of the result lies in the block of the point `row / 5000`. -/
theorem covered (i : S100000x16.Idx) :
    ∃ t : Fin cfg0.N, (cfg0.win 2).flush t = true ∧ i ∈ ((cfg0.win 2).blk t).view.set := by
  have hi0 : (i 0).val < 100000 := idx2_lt0 i
  have hi1 : (i 1).val < 16 := idx2_lt1 i
  have hN : cfg0.N = 20 := N_0
  let t : Fin cfg0.N := ⟨(i 0).val / 5000, by rw [hN]; omega⟩
  obtain ⟨-, -, -, -, e20, e21⟩ := idx_facts t
  refine ⟨t, flush0_2 t, ?_⟩
  show i ∈ ((View.whole main_v7).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e20]; show (i 0).val / 5000 * 5000 ≤ (i 0).val ∧ (i 0).val < (i 0).val / 5000 * 5000 + 5000; omega
  | ⟨1, _⟩ =>
    show win0_2.index t (1 : Fin 2) * 16 ≤ (i 1).val ∧ (i 1).val < win0_2.index t (1 : Fin 2) * 16 + 16
    rw [e21]; omega

/-- THE REGION'S RESULT: after the twenty points the result array holds the full product of the two arrays the region
    found in its operands' buffers. -/
theorem result (c : Dev nD) :
    (dat0 V c).arrAt 2 cfg0.N = rowsByCols (V c main_arg0) (V c main_arg3) :=
  (dat0 V c).arrAt_eq_of_cover 2 (rowsByCols (V c main_arg0) (V c main_arg3)) (fun t _ => flushed_eq V c t) (covered)

end Cert.KernelIdeal.Projection

end
-- ==== Proof.Region1.lean ====
/-
  The second kernel region (bias and rectifier), read as a value at the ideal numbers.

  Twenty grid points; point `t` loads rows `5000·t … 5000·t + 4999` of the aggregated features and the one-row bias,
  adds the bias row to every row, takes the maximum with zero and writes the block back at the same rows. Entry `(a, b)`
  of what point `t` writes is `max (s (5000·t + a, b) + bias (0, b)) 0`: every block is the restriction of the one array
  `biasRelu s bias`, and the blocks cover the 100000 rows, so the result array ends holding `biasRelu s bias`.
-/
import proofs.«115618_j85186381349135_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Activation

open Cert.KernelIdeal Cert.KernelIdeal.Gen

/-- A one-row bias added to every row, then the maximum with zero, entry by entry. -/
def biasRelu (S : FVec Ideal S100000x16 .f32) (b : FVec Ideal S1x16 .f32) : FVec Ideal S100000x16 .f32 :=
  fun i => max (S i + b (ix2 (0 : Fin 1) (⟨(i 1).val, idx2_lt1 i⟩ : Fin 16))) (Ideal.ofBits .f32 0x00000000#32)

theorem biasRelu_apply (S : FVec Ideal S100000x16 .f32) (b : FVec Ideal S1x16 .f32) (p : Fin 100000) (q : Fin 16) :
    biasRelu S b (ix2 p q) = max (S (ix2 p q) + b (ix2 (0 : Fin 1) q)) (Ideal.ofBits .f32 0x00000000#32) := rfl

theorem zeroOff : (![0, 0] : Fin 2 → Nat) = fun _ => 0 := funext fun a => by fin_cases a <;> rfl

/-- One point's block at an entry: the row's entry plus the bias entry of its column, cut off below at zero. -/
theorem pay_apply (x0 : FVec Ideal S5000x16 .f32) (x1 : FVec Ideal S1x16 .f32) (a : Fin 5000) (b : Fin 16) :
    k1_pay1 (F := Ideal) x0 x1 (ix2 a b) = max (x0 (ix2 a b) + x1 (ix2 (0 : Fin 1) b)) (Ideal.ofBits .f32 0x00000000#32) := by
  unfold k1_pay1
  show max ((shapeCast S5000x16 x0 shapeCasts_S5000x16_S5000x16) (ix2 a b)
      + (broadcastTo S5000x16 (shapeCast S1x16 x1 shapeCasts_S1x16_S1x16) broadcasts_S1x16_S5000x16) (ix2 a b)) _ = _
  rw [shapeCast_self, shapeCast_self, broadcastTo_1b_ab_apply]
  rfl

/-- A block of rows of `biasRelu S b` is the body's payload of that block of rows of `S` and of `b`. -/
theorem pay_block (S : FVec Ideal S100000x16 .f32) (B : FVec Ideal S1x16 .f32)
    (x0 : FVec Ideal S5000x16 .f32) (x1 : FVec Ideal S1x16 .f32) (r : Nat)
    (h0 : ∀ (a : Fin 5000) (b : Fin 16) (a' : Fin 100000), a'.val = r * 5000 + a.val → x0 (ix2 a b) = S (ix2 a' b))
    (h1 : ∀ (b : Fin 16), x1 (ix2 (0 : Fin 1) b) = B (ix2 (0 : Fin 1) b))
    (j : S5000x16.Idx) (i : S100000x16.Idx) (hi0 : (i 0).val = r * 5000 + (j 0).val) (hi1 : (i 1).val = (j 1).val) :
    k1_pay1 (F := Ideal) x0 x1 j = biasRelu S B i := by
  obtain ⟨a, b, rfl⟩ : ∃ (a : Fin 5000) (b : Fin 16), j = ix2 a b := ⟨j 0, j 1, eq_ix2 j⟩
  obtain ⟨a', b', rfl⟩ : ∃ (a' : Fin 100000) (b' : Fin 16), i = ix2 a' b' := ⟨i 0, i 1, eq_ix2 i⟩
  have eb : b' = b := Fin.ext hi1
  subst eb
  rw [pay_apply, biasRelu_apply, h0 a b' a' hi0, h1 b']

variable (V : (c : Dev nD) → (b : Ref sig .tc) → Buf (Elt Ideal) ((c : Thread nD τ).loc b))

/-- The printed index maps over the grid: the row-block windows sit at block row `t`, the bias row at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is its block of `biasRelu` of the arrays the region found. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero zeroOff]
  simp only [View.ld_unit_zero (S := S5000x16) zeroOff, View.ld_unit_zero (S := S1x16) zeroOff]
  obtain ⟨e00, e01, e10, e11, e20, e21⟩ := idx_facts t
  funext j
  refine pay_block (V c main_v43) (V c main_v44) _ _ t.val ?_ ?_ j _ ?_ ?_
  · intro a b a' ha
    show V c main_v43 (((cfg1.win 0).blk t).view.emb (ix2 a b)) = V c main_v43 (ix2 a' b)
    refine congrArg _ (funext fun d => Fin.ext ?_)
    match d with
    | ⟨0, _⟩ => show win1_0.index t (0 : Fin 2) * 5000 + 1 * a.val = a'.val; rw [e00, ha]; omega
    | ⟨1, _⟩ => show win1_0.index t (1 : Fin 2) * 16 + 1 * b.val = b.val; rw [e01]; omega
  · intro b
    show V c main_v44 (((cfg1.win 1).blk t).view.emb (ix2 (0 : Fin 1) b)) = V c main_v44 (ix2 (0 : Fin 1) b)
    refine congrArg _ (funext fun d => Fin.ext ?_)
    match d with
    | ⟨0, _⟩ => show win1_1.index t (0 : Fin 2) * 1 + 1 * 0 = 0; rw [e10]
    | ⟨1, _⟩ => show win1_1.index t (1 : Fin 2) * 16 + 1 * b.val = b.val; rw [e11]; omega
  · show win1_2.index t (0 : Fin 2) * 5000 + 1 * (j 0).val = t.val * 5000 + (j 0).val; rw [e20]; omega
  · show win1_2.index t (1 : Fin 2) * 16 + 1 * (j 1).val = (j 1).val; rw [e21]; omega

/-- Every row of the result lies in the block of the point `row / 5000`. -/
theorem covered (i : S100000x16.Idx) :
    ∃ t : Fin cfg1.N, (cfg1.win 2).flush t = true ∧ i ∈ ((cfg1.win 2).blk t).view.set := by
  have hi0 : (i 0).val < 100000 := idx2_lt0 i
  have hi1 : (i 1).val < 16 := idx2_lt1 i
  have hN : cfg1.N = 20 := N_1
  let t : Fin cfg1.N := ⟨(i 0).val / 5000, by rw [hN]; omega⟩
  obtain ⟨-, -, -, -, e20, e21⟩ := idx_facts t
  refine ⟨t, flush1_2 t, ?_⟩
  show i ∈ ((View.whole main_v45).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    rw [e20]; show (i 0).val / 5000 * 5000 ≤ (i 0).val ∧ (i 0).val < (i 0).val / 5000 * 5000 + 5000; omega
  | ⟨1, _⟩ =>
    show win1_2.index t (1 : Fin 2) * 16 ≤ (i 1).val ∧ (i 1).val < win1_2.index t (1 : Fin 2) * 16 + 16
    rw [e21]; omega

/-- THE REGION'S RESULT: after the twenty points the result array holds `biasRelu` of the two arrays the region found in
    its operands' buffers. -/
theorem result (c : Dev nD) :
    (dat1 V c).arrAt 2 cfg1.N = biasRelu (V c main_v43) (V c main_v44) :=
  (dat1 V c).arrAt_eq_of_cover 2 (biasRelu (V c main_v43) (V c main_v44)) (fun t _ => flushed_eq V c t) (covered)

end Cert.KernelIdeal.Activation

end
-- ==== Proof.LibColumn.lean ====
/-
  One-column arrays read at an entry.

  An `[a, 1]` array broadcast to `[a, b]` repeats its single column: the entry at `(p, c)` is the operand's entry at
  `(p, 0)`, whatever the column `c`. (The companion of the library's row form, a `[1, b]` array broadcast to `[a, b]`.)
  An `[a]` vector cast to the one-column shape `[a, 1]` reads, at `(i, 0)`, the vector at `i`: row-major order does not
  see a trailing unit axis.
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.LibColumn

end
-- ==== Proof.Region2.lean ====
/-
  The third kernel region (mean pooling and the final linear layer), read as a value at the ideal numbers.

  One grid point, every window the whole of its array. The body clamps the per-graph node counts below at one, divides
  every row of the per-graph sums by its graph's clamped count, multiplies the 1024 × 16 quotient by the 16 × 10 weight
  into the zero accumulator and adds the one-row bias to every row. A change of float format is the identity on the ideal
  numbers, so entry `(p, q)` of the result is `(∑ k, sums (p, k) / max (cnt (p, 0)) 1 · w (k, q)) + bias (0, q)`: the array
  `poolLinear sums cnt w bias`.
-/
import proofs.«115618_j85186381349135_1_alg».proof.Proof.Gen.KernelIdeal.Frame
import proofs.«115618_j85186381349135_1_alg».proof.Proof.LibDot
import proofs.«115618_j85186381349135_1_alg».proof.Proof.LibColumn
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Head

open Cert.KernelIdeal Cert.KernelIdeal.Gen

/-- Rows of `S` divided by the row's count clamped below at one, times `W`, plus the one-row bias, entry by entry. -/
def poolLinear (S : FVec Ideal S1024x16 .f32) (C : FVec Ideal S1024x1 .f32) (W : FVec Ideal S16x10 .f32)
    (B : FVec Ideal S1x10 .f32) : FVec Ideal S1024x10 .f32 :=
  fun i => (∑ k : Fin 16, Ideal.div (S (ix2 (⟨(i 0).val, idx2_lt0 i⟩ : Fin 1024) k))
        (max (C (ix2 (⟨(i 0).val, idx2_lt0 i⟩ : Fin 1024) (0 : Fin 1))) (Ideal.ofBits .f32 0x3F800000#32))
      * W (ix2 k (⟨(i 1).val, idx2_lt1 i⟩ : Fin 10)))
    + B (ix2 (0 : Fin 1) (⟨(i 1).val, idx2_lt1 i⟩ : Fin 10))

theorem poolLinear_apply (S : FVec Ideal S1024x16 .f32) (C : FVec Ideal S1024x1 .f32) (W : FVec Ideal S16x10 .f32)
    (B : FVec Ideal S1x10 .f32) (p : Fin 1024) (q : Fin 10) :
    poolLinear S C W B (ix2 p q) = (∑ k : Fin 16, Ideal.div (S (ix2 p k))
        (max (C (ix2 p (0 : Fin 1))) (Ideal.ofBits .f32 0x3F800000#32)) * W (ix2 k q)) + B (ix2 (0 : Fin 1) q) := rfl

theorem zeroOff : (![0, 0] : Fin 2 → Nat) = fun _ => 0 := funext fun a => by fin_cases a <;> rfl

/-- The body's payload at an entry. -/
theorem pay_apply (v0 : FVec Ideal S1024x1 .f32) (v4 : FVec Ideal S1024x16 .f32) (v9 : FVec Ideal S16x10 .f32)
    (v12 : FVec Ideal S1x10 .f32) (p : Fin 1024) (q : Fin 10) :
    k2_pay1 (F := Ideal) v0 v4 v9 v12 (ix2 p q) = (∑ k : Fin 16, Ideal.div (v4 (ix2 p k))
        (max (v0 (ix2 p (0 : Fin 1))) (Ideal.ofBits .f32 0x3F800000#32)) * v9 (ix2 k q)) + v12 (ix2 (0 : Fin 1) q) := by
  unfold k2_pay1
  show (matmul (F := Ideal) dot_S1024x16_S16x10_S1024x10_1_0_0_1_n_n none _ _ (constant S1024x10 .f32 0x00000000#32)) (ix2 p q)
      + (broadcastTo S1024x10 (shapeCast S1x10 v12 shapeCasts_S1x10_S1x10) broadcasts_S1x10_S1024x10) (ix2 p q) = _
  rw [Cert.LibDot.matmul_10_zero_apply dot_S1024x16_S16x10_S1024x10_1_0_0_1_n_n rfl rfl rfl rfl rfl rfl none _ _ p q,
    broadcastTo_1b_ab_apply]
  simp only [shapeCast_self]
  refine congrArg (· + v12 (ix2 (0 : Fin 1) q)) (Finset.sum_congr rfl fun k _ => ?_)
  show Ideal.div (v4 (ix2 p k))
      ((broadcastTo S1024x16 (maximumf v0 (broadcast S1024x1 (FloatOps.ofBits (F := Ideal) .f32 0x3F800000#32)))
        broadcasts_S1024x1_S1024x16) (ix2 p k)) * v9 (ix2 k q) = _
  rw [Cert.LibColumn.broadcastTo_a1_ab_apply]
  rfl

/-- With each loaded block the whole of its array, the payload at an entry is `poolLinear` there. -/
theorem pay_block (S : FVec Ideal S1024x16 .f32) (C : FVec Ideal S1024x1 .f32) (W : FVec Ideal S16x10 .f32)
    (B : FVec Ideal S1x10 .f32)
    (v0 : FVec Ideal S1024x1 .f32) (v4 : FVec Ideal S1024x16 .f32) (v9 : FVec Ideal S16x10 .f32) (v12 : FVec Ideal S1x10 .f32)
    (h0 : ∀ (p : Fin 1024), v0 (ix2 p (0 : Fin 1)) = C (ix2 p (0 : Fin 1)))
    (h4 : ∀ (p : Fin 1024) (k : Fin 16), v4 (ix2 p k) = S (ix2 p k))
    (h9 : ∀ (k : Fin 16) (q : Fin 10), v9 (ix2 k q) = W (ix2 k q))
    (h12 : ∀ (q : Fin 10), v12 (ix2 (0 : Fin 1) q) = B (ix2 (0 : Fin 1) q))
    (j : S1024x10.Idx) (i : S1024x10.Idx) (hi0 : (i 0).val = (j 0).val) (hi1 : (i 1).val = (j 1).val) :
    k2_pay1 (F := Ideal) v0 v4 v9 v12 j = poolLinear S C W B i := by
  obtain ⟨p, q, rfl⟩ : ∃ (p : Fin 1024) (q : Fin 10), j = ix2 p q := ⟨j 0, j 1, eq_ix2 j⟩
  obtain ⟨p', q', rfl⟩ : ∃ (p' : Fin 1024) (q' : Fin 10), i = ix2 p' q' := ⟨i 0, i 1, eq_ix2 i⟩
  have ep : p' = p := Fin.ext hi0
  have eq' : q' = q := Fin.ext hi1
  subst ep; subst eq'
  rw [pay_apply, poolLinear_apply, h0 p', h12 q']
  exact congrArg (· + B (ix2 (0 : Fin 1) q')) (Finset.sum_congr rfl fun k _ => by rw [h4 p' k, h9 k q'])

variable (V : (c : Dev nD) → (b : Ref sig .tc) → Buf (Elt Ideal) ((c : Thread nD τ).loc b))

/-- The printed index maps over the one-point grid: every window sits at the origin. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What the one point writes back is the whole of `poolLinear` of the arrays the region found. -/
theorem flushed_eq (c : Dev nD) (t : Fin cfg2.N) :
    (dat2 V c).flushed 4 t = ((cfg2.win 4).blk t).view.read (Elt Ideal)
      (poolLinear (V c main_v48) (V c main_v53) (V c main_arg5) (V c main_v54)) := by
  show (cfg2.win 4).cut (grid2.coords t) ((dat2 V c).after 4 t) = _
  rw [after2_4]
  unfold out2_4
  rw [View.canon_unit_zero zeroOff]
  simp only [View.ld_unit_zero (S := S1024x16) zeroOff, View.ld_unit_zero (S := S1024x1) zeroOff,
    View.ld_unit_zero (S := S16x10) zeroOff, View.ld_unit_zero (S := S1x10) zeroOff]
  obtain ⟨e00, e01, e10, e11, e20, e21, e30, e31, e40, e41⟩ := idx_facts t
  funext j
  refine pay_block (V c main_v48) (V c main_v53) (V c main_arg5) (V c main_v54) _ _ _ _ ?_ ?_ ?_ ?_ j _ ?_ ?_
  · intro p
    show V c main_v53 (((cfg2.win 1).blk t).view.emb (ix2 p (0 : Fin 1))) = V c main_v53 (ix2 p (0 : Fin 1))
    refine congrArg _ (funext fun d => Fin.ext ?_)
    match d with
    | ⟨0, _⟩ => show win2_1.index t (0 : Fin 2) * 1024 + 1 * p.val = p.val; rw [e10]; omega
    | ⟨1, _⟩ => show win2_1.index t (1 : Fin 2) * 1 + 1 * 0 = 0; rw [e11]
  · intro p k
    show V c main_v48 (((cfg2.win 0).blk t).view.emb (ix2 p k)) = V c main_v48 (ix2 p k)
    refine congrArg _ (funext fun d => Fin.ext ?_)
    match d with
    | ⟨0, _⟩ => show win2_0.index t (0 : Fin 2) * 1024 + 1 * p.val = p.val; rw [e00]; omega
    | ⟨1, _⟩ => show win2_0.index t (1 : Fin 2) * 16 + 1 * k.val = k.val; rw [e01]; omega
  · intro k q
    show V c main_arg5 (((cfg2.win 2).blk t).view.emb (ix2 k q)) = V c main_arg5 (ix2 k q)
    refine congrArg _ (funext fun d => Fin.ext ?_)
    match d with
    | ⟨0, _⟩ => show win2_2.index t (0 : Fin 2) * 16 + 1 * k.val = k.val; rw [e20]; omega
    | ⟨1, _⟩ => show win2_2.index t (1 : Fin 2) * 10 + 1 * q.val = q.val; rw [e21]; omega
  · intro q
    show V c main_v54 (((cfg2.win 3).blk t).view.emb (ix2 (0 : Fin 1) q)) = V c main_v54 (ix2 (0 : Fin 1) q)
    refine congrArg _ (funext fun d => Fin.ext ?_)
    match d with
    | ⟨0, _⟩ => show win2_3.index t (0 : Fin 2) * 1 + 1 * 0 = 0; rw [e30]
    | ⟨1, _⟩ => show win2_3.index t (1 : Fin 2) * 10 + 1 * q.val = q.val; rw [e31]; omega
  · show win2_4.index t (0 : Fin 2) * 1024 + 1 * (j 0).val = (j 0).val; rw [e40]; omega
  · show win2_4.index t (1 : Fin 2) * 10 + 1 * (j 1).val = (j 1).val; rw [e41]; omega

/-- The one point's block is the whole result array. -/
theorem covered (i : S1024x10.Idx) :
    ∃ t : Fin cfg2.N, (cfg2.win 4).flush t = true ∧ i ∈ ((cfg2.win 4).blk t).view.set := by
  have hi0 : (i 0).val < 1024 := idx2_lt0 i
  have hi1 : (i 1).val < 10 := idx2_lt1 i
  obtain ⟨-, -, -, -, -, -, -, -, e40, e41⟩ := idx_facts t2_0
  refine ⟨t2_0, flush2_4 t2_0, ?_⟩
  show i ∈ ((View.whole main_v55).slice (win2_4.rect t2_0)).set
  rw [View.set_slice_whole, Rect.mem_set_unit]
  intro a
  match a with
  | ⟨0, _⟩ =>
    show win2_4.index t2_0 (0 : Fin 2) * 1024 ≤ (i 0).val ∧ (i 0).val < win2_4.index t2_0 (0 : Fin 2) * 1024 + 1024
    rw [e40]; omega
  | ⟨1, _⟩ =>
    show win2_4.index t2_0 (1 : Fin 2) * 10 ≤ (i 1).val ∧ (i 1).val < win2_4.index t2_0 (1 : Fin 2) * 10 + 10
    rw [e41]; omega

/-- THE REGION'S RESULT: the result array holds `poolLinear` of the four arrays the region found. -/
theorem result (c : Dev nD) :
    (dat2 V c).arrAt 4 cfg2.N = poolLinear (V c main_v48) (V c main_v53) (V c main_arg5) (V c main_v54) :=
  (dat2 V c).arrAt_eq_of_cover 4 (poolLinear (V c main_v48) (V c main_v53) (V c main_arg5) (V c main_v54))
    (fun t _ => flushed_eq V c t) (covered)

end Cert.KernelIdeal.Head

end
-- ==== Proof.LibHostDot.lean ====
/-
  The host's matrix product with ONE contracted axis and no batch axis, read at an entry at the ideal values.

  Rows by columns: for any dimension-numbers record whose axis lists are the stated ones (a printed record satisfies each
  hypothesis by `rfl`), an `M × K` by a `K × N` operand, the left contracted on its last axis and the right on its first,
  gives at entry `(a, b)` the sum over the contracted coordinate `c` of the left operand's `(a, c)` entry times the right
  operand's `(c, b)` entry. The host's product has no accumulator, so this is the whole value.
-/
import proofs.«115618_j85186381349135_1_alg».proof.Proof.LibDot
import Idealize.ShloMosaic.Lib.ValueIdx
import Idealize.ShloMosaic.PureOps.Ideal.Laws

noncomputable section

open scoped BigOperators

namespace Cert.LibHostDot

open Idealize.ShloMosaic Idealize.ShloMosaic.ValueIdx

/-- Rows by columns on the host. -/
theorem dotGeneral_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  simp only [Host.dotGeneral]
  rw [Ideal.dotGeneral_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := Cert.LibDot.rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibHostDot

end
-- ==== Proof.Values.lean ====
/-
  The three kernel regions compute what the reference computes at the same places, at the ideal numbers.

  • The first region's full product `rowsByCols x w` is the reference's `dot_general`: both are, at entry `(a, b)`, the
    sum over `k` of `x (a, k) · w (k, b)`.
  • The second region's `biasRelu s (b1 as one row)` is the reference's `max (s + broadcast b1) 0`: at entry `(p, q)` both
    are `max (s (p, q) + b1 q) 0`.
  • The third region's `poolLinear sums (cnt as one column) w (b2 as one row)` is the reference's
    `(sums / broadcast (max 1 cnt)) · w + broadcast b2`: at entry `(p, q)` both are
    `(∑ k, sums (p, k) / max (cnt p) 1 · w (k, q)) + b2 q` — the maximum is symmetric in its arguments.
  No law of arithmetic beyond that symmetry is used: the sums run over the same terms in the same order.
-/
import proofs.«115618_j85186381349135_1_alg».proof.Proof.Region0
import proofs.«115618_j85186381349135_1_alg».proof.Proof.Region1
import proofs.«115618_j85186381349135_1_alg».proof.Proof.Region2
import proofs.«115618_j85186381349135_1_alg».proof.Proof.Spec
import proofs.«115618_j85186381349135_1_alg».proof.Proof.LibHostDot
import proofs.«115618_j85186381349135_1_alg».proof.Proof.LibColumn
import Idealize.ShloMosaic.Lib.ValueLayout

noncomputable section

open scoped BigOperators
open Idealize.ShloMosaic Idealize.ShloMosaic.TcCoe Idealize.ShloMosaic.ValueIdx

namespace Cert.Gcn

open Cert.ReferenceIdeal.ReadP

/-- The host's quotient of two arrays, read at an entry. -/
theorem hostDivf_apply {s : Shape} {φ : FTy} (a b : FVec Ideal s φ) (i : s.Idx) :
    Host.divf (F := Ideal) a b i = Ideal.div (a i) (b i) := rfl

/-- The kernel's full product is the reference's `dot_general`. -/
theorem product_eq (A : FVec Ideal Cert.KernelIdeal.S100000x128 .f32) (B : FVec Ideal Cert.KernelIdeal.S128x16 .f32) :
    Cert.KernelIdeal.Projection.rowsByCols A B = val_main_v7 (F := Ideal) A B := by
  funext i
  obtain ⟨a, b, rfl⟩ : ∃ (a : Fin 100000) (b : Fin 16), i = ix2 a b := ⟨i 0, i 1, eq_ix2 i⟩
  rw [Cert.KernelIdeal.Projection.rowsByCols_apply, val_main_v7_apply]
  refine Finset.sum_congr rfl fun k _ => ?_
  have el : lidx_main_v7 (ix2 a b) k = ix2 a k :=
    funext fun d => Fin.ext (by match d with | ⟨0, _⟩ => rfl | ⟨1, _⟩ => rfl)
  have er : ridx_main_v7 (ix2 a b) k = ix2 k b :=
    funext fun d => Fin.ext (by match d with | ⟨0, _⟩ => rfl | ⟨1, _⟩ => rfl)
  rw [el, er]

/-- The kernel's bias-and-rectifier on a one-row bias is the reference's on the bias vector. -/
theorem act_eq (S : FVec Ideal Cert.KernelIdeal.S100000x16 .f32) (b1 : FVec Ideal Cert.KernelIdeal.S16 .f32) :
    Cert.KernelIdeal.Activation.biasRelu S (shapeCast Cert.KernelIdeal.S1x16 b1 Cert.KernelIdeal.Gen.shapeCasts_S16_S1x16)
      = refAct (F := Ideal) S b1 := by
  funext i
  obtain ⟨p, q, rfl⟩ : ∃ (p : Fin 100000) (q : Fin 16), i = ix2 p q := ⟨i 0, i 1, eq_ix2 i⟩
  rw [Cert.KernelIdeal.Activation.biasRelu_apply, shapeCast_a_1a_apply]
  show _ = max (S (ix2 p q) + val_main_v45 (F := Ideal) b1 (ix2 p q)) (val_main_call1_v0 (F := Ideal) (ix2 p q))
  rw [val_main_v45_apply, val_main_v44_apply, val_main_call1_v0_apply]
  have e : idx_main_v44 (idx_main_v45 (ix2 p q)) = ix1 q :=
    funext fun d => Fin.ext (by match d with | ⟨0, _⟩ => rfl)
  rw [e]
  rfl

/-- The kernel's pooling-and-linear layer on a one-column count and a one-row bias is the reference's on the vectors. -/
theorem head_eq (sums : FVec Ideal Cert.KernelIdeal.S1024x16 .f32) (bt : (⟨Cert.ReferenceIdeal.S100000, .i32⟩ : BufTy).Contents (Elt Ideal))
    (w2 : FVec Ideal Cert.KernelIdeal.S16x10 .f32) (b2 : FVec Ideal Cert.KernelIdeal.S10 .f32) :
    Cert.KernelIdeal.Head.poolLinear sums
        (shapeCast Cert.KernelIdeal.S1024x1 (counts (F := Ideal) bt) Cert.KernelIdeal.Gen.shapeCasts_S1024_S1024x1) w2
        (shapeCast Cert.KernelIdeal.S1x10 b2 Cert.KernelIdeal.Gen.shapeCasts_S10_S1x10)
      = refHead (F := Ideal) sums bt w2 b2 := by
  funext i
  obtain ⟨p, q, rfl⟩ : ∃ (p : Fin 1024) (q : Fin 10), i = ix2 p q := ⟨i 0, i 1, eq_ix2 i⟩
  rw [Cert.KernelIdeal.Head.poolLinear_apply, shapeCast_a_1a_apply, Cert.LibColumn.shapeCast_a_a1_apply]
  show _ = (Host.dotGeneral (F := Ideal) Cert.ReferenceIdeal.dot_S1024x16_S16x10_S1024x10_1_0_0_1_n_n none
      (Host.divf sums (val_main_v57 (F := Ideal) bt)) w2) (ix2 p q) + val_main_v61 (F := Ideal) b2 (ix2 p q)
  rw [Cert.LibHostDot.dotGeneral_10_apply Cert.ReferenceIdeal.dot_S1024x16_S16x10_S1024x10_1_0_0_1_n_n rfl rfl rfl rfl rfl rfl,
    val_main_v61_apply, val_main_v60_apply]
  have eb : idx_main_v60 (idx_main_v61 (ix2 p q)) = ix1 q :=
    funext fun d => Fin.ext (by match d with | ⟨0, _⟩ => rfl)
  rw [eb]
  refine congrArg (· + b2 (ix1 q)) (Finset.sum_congr rfl fun k _ => ?_)
  rw [hostDivf_apply, val_main_v57_apply, val_main_v56_apply, val_main_v55_apply, val_main_call2_v1_apply]
  have ec : idx_main_v56 (idx_main_v57 (ix2 p k)) = ix1 p :=
    funext fun d => Fin.ext (by match d with | ⟨0, _⟩ => rfl)
  rw [ec]
  show Ideal.div (sums (ix2 p k)) (max (counts (F := Ideal) bt (ix1 p)) (Ideal.ofBits .f32 0x3F800000#32)) * w2 (ix2 k q)
    = Ideal.div (sums (ix2 p k)) (max (Ideal.ofBits .f32 0x3F800000#32) (val_main_v54 (F := Ideal) bt (ix1 p))) * w2 (ix2 k q)
  rw [max_comm]
  rfl

end Cert.Gcn

end
-- ==== Proof.KernelValue.lean ====
/-
  The kernel program's result, as one function of the launch contents of its arguments.

  The fold of buffer contents through the program's segments is opened from the end: the result buffer at the last
  boundary is what the third region wrote, `poolLinear` of its operands at that region's entry; those are the per-graph
  sums of what the second region wrote (`biasRelu` of the aggregation of what the first region wrote, the full product of
  the features by the first weight), the node counts, the second weight and the second bias. Rewriting the three regions'
  functions by the reference's (`Cert.Gcn.product_eq`, `act_eq`, `head_eq`) gives the reference's result term of the same
  arguments.
-/
import proofs.«115618_j85186381349135_1_alg».proof.Proof.Hosts
import proofs.«115618_j85186381349135_1_alg».proof.Proof.Values

set_option maxRecDepth 16384

noncomputable section

open Idealize.ShloMosaic Idealize.ShloMosaic.TcCoe Idealize.SL.Sem

namespace Cert.KernelIdeal.Result

open Cert.KernelIdeal Cert.KernelIdeal.Gen Cert.KernelIdeal.Hosts

variable (m : (ℓ : Loc nD τ sig) → Buf (Elt Ideal) ℓ) (ρ : Dev nD → PrngReg)

/-- After the first region the projected features are the reference's product of the launch contents. -/
theorem projected (c : Dev nD) :
    W2 m ρ c (Proc.devRef .tc main_v7)
      = Cert.ReferenceIdeal.ReadP.val_main_v7 (F := Ideal) (m ((c : Thread nD τ).loc main_arg0)) (m ((c : Thread nD τ).loc main_arg3)) := by
  refine (W2_arr m ρ c 2).trans ((Projection.result (V1 m ρ) c).trans ?_)
  rw [V1_arg0, V1_arg3]
  exact Cert.Gcn.product_eq _ _

/-- After the second region the activations are the reference's of the aggregated product. -/
theorem activated (c : Dev nD) :
    W6 m ρ c (Proc.devRef .tc main_v45)
      = Cert.Gcn.refAct (F := Ideal) (Cert.Gcn.aggregate (F := Ideal) (m ((c : Thread nD τ).loc main_arg1))
          (Cert.ReferenceIdeal.ReadP.val_main_v7 (F := Ideal) (m ((c : Thread nD τ).loc main_arg0)) (m ((c : Thread nD τ).loc main_arg3))))
          (m ((c : Thread nD τ).loc main_arg4)) := by
  refine (W6_arr m ρ c 2).trans ((Activation.result (V5 m ρ) c).trans ?_)
  rw [V5_agg, V5_bias, projected]
  exact Cert.Gcn.act_eq _ _

/-- After the third region the result buffer holds the reference's result term of the launch contents. -/
theorem result_eq (c : Dev nD) :
    W8 m ρ c (Proc.devRef .tc main_v55)
      = Cert.ReferenceIdeal.ReadP.val_main_v62 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [Cert.Gcn.ref_eq]
  refine (W8_arr m ρ c 4).trans ((Head.result (V7 m ρ) c).trans ?_)
  rw [V7_sums, V7_cnt, V7_w2, V7_b2, activated]
  exact Cert.Gcn.head_eq _ _ _ _

end Cert.KernelIdeal.Result

end
-- ==== Proof.lean ====
/-
  A two-layer graph network's forward pass — project the node features, aggregate them over the edges with symmetric
  degree normalisation and self loops, add a bias and rectify, pool by graph (mean), apply a linear layer — computed by a
  program with three kernel regions (the projection `x · W1` in twenty row blocks, the bias-and-rectifier in twenty row
  blocks, the mean-normalisation with the final linear layer in one block) against the plain array program.

  Over the extended reals the two agree exactly and no law of arithmetic is needed beyond the symmetry of the maximum:
  a change of float format is the identity, each kernel matrix product into the zero accumulator is the same sum over the
  contracted coordinate as the host's `dot_general`, the blocks of each region are restrictions of one whole-array
  function and cover the array, and everything between the regions is the same host operations in both programs.

  • The three frames: the generated frame certificates for the two kernel programs; the reference's run with its result
    dropped.
  • The idealization rewrote nothing, so there is nothing to preserve.
  • The value claim: the kernel program's run, its post keeping the result buffer at the last boundary's contents
    (`Gen.run_result`), those contents read back through the regions and host stretches to the reference's result term of
    the launch contents (`Result.result_eq`); the reference's run ends at that same term of arguments that agree.
-/
import proofs.«115618_j85186381349135_1_alg».proof.Defs
import proofs.«115618_j85186381349135_1_alg».proof.Proof.Gen.Kernel
import proofs.«115618_j85186381349135_1_alg».proof.Proof.Gen.Kernel.Skeleton
import proofs.«115618_j85186381349135_1_alg».proof.Proof.Gen.Kernel.Launch
import proofs.«115618_j85186381349135_1_alg».proof.Proof.Gen.Kernel.Points
import proofs.«115618_j85186381349135_1_alg».proof.Proof.Gen.Kernel.Frame
import proofs.«115618_j85186381349135_1_alg».proof.Proof.Gen.KernelIdeal
import proofs.«115618_j85186381349135_1_alg».proof.Proof.Gen.KernelIdeal.Skeleton
import proofs.«115618_j85186381349135_1_alg».proof.Proof.Gen.KernelIdeal.Launch
import proofs.«115618_j85186381349135_1_alg».proof.Proof.Gen.KernelIdeal.Points
import proofs.«115618_j85186381349135_1_alg».proof.Proof.Gen.KernelIdeal.Frame
import proofs.«115618_j85186381349135_1_alg».proof.Proof.Gen.ReferenceIdeal
import proofs.«115618_j85186381349135_1_alg».proof.Proof.Gen.Pre_finite_inputs
import proofs.«115618_j85186381349135_1_alg».proof.Proof.KernelRun
import proofs.«115618_j85186381349135_1_alg».proof.Proof.KernelValue
import proofs.«115618_j85186381349135_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- Both programs end with the result buffer at the reference's result term of the launch contents of the arguments,
    and the arguments agree. -/
theorem algebraic : Cert.algebraic_KernelIdeal_ReferenceIdeal := by
  intro m ρ m' ρ' _ hagree
  refine ⟨fun c => Cert.KernelIdeal.Gen.W8 m ρ c (Proc.devRef .tc Cert.KernelIdeal.main_v55),
    Cert.KernelIdeal.Gen.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v62_eq, (hagree c).1, (hagree c).2.1, (hagree c).2.2.1, (hagree c).2.2.2.1,
    (hagree c).2.2.2.2.1, (hagree c).2.2.2.2.2.1, (hagree c).2.2.2.2.2.2]
  exact (Cert.KernelIdeal.Result.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
